-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x512x512 : Shape := ⟨3, ![2, 512, 512]⟩
abbrev S2x128x512 : Shape := ⟨3, ![2, 128, 512]⟩
abbrev S1024x1024 : Shape := ⟨2, ![1024, 1024]⟩
abbrev S_ : Shape := ⟨0, ![]⟩

class Facts : Prop where
  bcast_S_S2x512x512 : S_.BroadcastsInDim S2x512x512 (![] : Fin 0 → Fin S2x512x512.rank)
  reducesTo_S2x512x512_S_d0_1_2 : S2x512x512.ReducesTo [0, 1, 2] S_
  h_S_ : 0 < S_.numel
  bcast_S_S2x128x512 : S_.BroadcastsInDim S2x128x512 (![] : Fin 0 → Fin S2x128x512.rank)
  reducesTo_S2x128x512_S_d0_1_2 : S2x128x512.ReducesTo [0, 1, 2] S_
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S2x512x512 .f32) (main_arg1 : FVec F S2x128x512 .f32) (main_arg2 : FVec F S1024x1024 .f32) : IVec S_ 1 :=
  let main_v0 : FVec F S2x512x512 .f32 := Host.absf main_arg0
  let main_cst : FVec F S_ .f32 := constant S_ .f32 0x7F800000#32
  let main_v1 : FVec F S2x512x512 .f32 := broadcastInDim S2x512x512 ![] bcast_S_S2x512x512 main_cst
  let main_v2 : IVec S2x512x512 1 := cmpf .olt main_v0 main_v1
  let main_c : IVec S_ 1 := constantI S_ 1 1#1
  let main_v3 : IVec S_ 1 := (fun x v => Host.reduce IntOp.andi x v reducesTo_S2x512x512_S_d0_1_2 h_S_) main_v2 main_c
  let main_v4 : FVec F S2x128x512 .f32 := Host.absf main_arg1
  let main_cst_0 : FVec F S_ .f32 := constant S_ .f32 0x7F800000#32
  let main_v5 : FVec F S2x128x512 .f32 := broadcastInDim S2x128x512 ![] bcast_S_S2x128x512 main_cst_0
  let main_v6 : IVec S2x128x512 1 := cmpf .olt main_v4 main_v5
  let main_c_1 : IVec S_ 1 := constantI S_ 1 1#1
  let main_v7 : IVec S_ 1 := (fun x v => Host.reduce IntOp.andi x v reducesTo_S2x128x512_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S2x512x512 : Shape := ⟨3, ![2, 512, 512]⟩
abbrev S2x128x512 : Shape := ⟨3, ![2, 128, 512]⟩
abbrev S1024x1024 : Shape := ⟨2, ![1024, 1024]⟩
abbrev S1024x512 : Shape := ⟨2, ![1024, 512]⟩
abbrev S512x1024 : Shape := ⟨2, ![512, 1024]⟩
abbrev S256x512 : Shape := ⟨2, ![256, 512]⟩
abbrev S256x1024 : Shape := ⟨2, ![256, 1024]⟩
abbrev S2x512x1024 : Shape := ⟨3, ![2, 512, 1024]⟩
abbrev S2x128x1024 : Shape := ⟨3, ![2, 128, 1024]⟩
abbrev S2x512x128x1024 : Shape := ⟨4, ![2, 512, 128, 1024]⟩
abbrev S1x16x1024 : Shape := ⟨3, ![1, 16, 1024]⟩
abbrev S1x128x1024 : Shape := ⟨3, ![1, 128, 1024]⟩
abbrev S1x16x128x1024 : Shape := ⟨4, ![1, 16, 128, 1024]⟩
abbrev S16x1024 : Shape := ⟨2, ![16, 1024]⟩
abbrev S128x1024 : Shape := ⟨2, ![128, 1024]⟩
abbrev S16x1x1024 : Shape := ⟨3, ![16, 1, 1024]⟩
abbrev S16x128x1024 : Shape := ⟨3, ![16, 128, 1024]⟩

abbrev nBuf : Space → Nat
  | .hbm => 14
  | .vmem => 14
  | .smem => 0
  | _ => 0

abbrev bufTy : (tb : Table) → Fin (tcTables nBuf tb) → BufTy
  | .hbm, ⟨0, _⟩ => ⟨S2x512x512, .f32⟩
  | .hbm, ⟨1, _⟩ => ⟨S2x128x512, .f32⟩
  | .hbm, ⟨2, _⟩ => ⟨S1024x1024, .f32⟩
  | .hbm, ⟨3, _⟩ => ⟨S1024x512, .f32⟩
  | .hbm, ⟨4, _⟩ => ⟨S512x1024, .f32⟩
  | .hbm, ⟨5, _⟩ => ⟨S1024x512, .f32⟩
  | .hbm, ⟨6, _⟩ => ⟨S512x1024, .f32⟩
  | .hbm, ⟨7, _⟩ => ⟨S1024x512, .f32⟩
  | .hbm, ⟨8, _⟩ => ⟨S256x512, .f32⟩
  | .hbm, ⟨9, _⟩ => ⟨S1024x1024, .f32⟩
  | .hbm, ⟨10, _⟩ => ⟨S2x512x1024, .f32⟩
  | .hbm, ⟨11, _⟩ => ⟨S256x1024, .f32⟩
  | .hbm, ⟨12, _⟩ => ⟨S2x128x1024, .f32⟩
  | .hbm, ⟨13, _⟩ => ⟨S2x512x128x1024, .f32⟩
  | .local _ .vmem, ⟨0, _⟩ => ⟨S256x512, .f32⟩
  | .local _ .vmem, ⟨1, _⟩ => ⟨S256x512, .f32⟩
  | .local _ .vmem, ⟨2, _⟩ => ⟨S512x1024, .f32⟩
  | .local _ .vmem, ⟨3, _⟩ => ⟨S256x1024, .f32⟩
  | .local _ .vmem, ⟨4, _⟩ => ⟨S256x1024, .f32⟩
  | .local _ .vmem, ⟨5, _⟩ => ⟨S256x512, .f32⟩
  | .local _ .vmem, ⟨6, _⟩ => ⟨S512x1024, .f32⟩
  | .local _ .vmem, ⟨7, _⟩ => ⟨S256x1024, .f32⟩
  | .local _ .vmem, ⟨8, _⟩ => ⟨S1x16x1024, .f32⟩
  | .local _ .vmem, ⟨9, _⟩ => ⟨S1x16x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x16x128x1024, .f32⟩
  | .local _ .vmem, ⟨13, _⟩ => ⟨S1x16x128x1024, .f32⟩
  | _, _ => ⟨S2x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem2_0 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S256x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S512x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev grid2 : Pipeline.Grid := ⟨2, ![2, 32], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage2_0 : Fin 2 → Memref sig .tc .vmem S1x16x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x128x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x16x128x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  slices_S1024x1024_S1024x512_0_0 : S1024x1024.Slices ![0, 0] S1024x512
  transposes_S1024x512_S512x1024_1_0 : S1024x512.Transposes [1, 0] S512x1024
  slices_S1024x1024_S1024x512_0_512 : S1024x1024.Slices ![0, 512] S1024x512
  shapeCasts_S2x512x512_S1024x512 : S2x512x512.ShapeCasts S1024x512
  shapeCasts_S2x128x512_S256x512 : S2x128x512.ShapeCasts S256x512
  inb_S256x512_S256x512_0_0 : ∀ a, (![0, 0] : Fin 2 → Nat) a + S256x512.size a ≤ S256x512.size a
  h_S256x512 : 0 < S256x512.numel
  shapeCasts_S256x512_S256x512 : S256x512.ShapeCasts S256x512
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S256x1024_S256x1024_0_0 : ∀ a, (![0, 0] : Fin 2 → Nat) a + S256x1024.size a ≤ S256x1024.size a
  h_S256x1024 : 0 < S256x1024.numel
  shapeCasts_S1024x1024_S2x512x1024 : S1024x1024.ShapeCasts S2x512x1024
  shapeCasts_S256x1024_S2x128x1024 : S256x1024.ShapeCasts S2x128x1024
  inb_S1x16x1024_S1x16x1024_0_0_0 : ∀ a, (![0, 0, 0] : Fin 3 → Nat) a + S1x16x1024.size a ≤ S1x16x1024.size a
  h_S1x16x1024 : 0 < S1x16x1024.numel
  shapeCasts_S1x16x1024_S16x1024 : S1x16x1024.ShapeCasts S16x1024
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  shapeCasts_S16x1024_S16x1x1024 : S16x1024.ShapeCasts S16x1x1024
  shapeCasts_S128x1024_S1x128x1024 : S128x1024.ShapeCasts S1x128x1024
  broadcasts_S16x1x1024_S16x128x1024 : S16x1x1024.Broadcasts S16x128x1024
  broadcasts_S1x128x1024_S16x128x1024 : S1x128x1024.Broadcasts S16x128x1024
  inb_S1x16x128x1024_S1x16x128x1024_0_0_0_0 : ∀ a, (![0, 0, 0, 0] : Fin 4 → Nat) a + S1x16x128x1024.size a ≤ S1x16x128x1024.size a
  h_S1x16x128x1024 : 0 < S1x16x128x1024.numel
  shapeCasts_S1x16x128x1024_S16x128x1024 : S1x16x128x1024.ShapeCasts S16x128x1024
  shapeCasts_S16x128x1024_S1x16x128x1024 : S16x128x1024.ShapeCasts S1x16x128x1024
  dot_S256x512_S512x1024_S256x1024_1_0_0_1_n_n_wf : DotDims.WF S256x512 S512x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S1024x512.size a
  hwx0_0 : ∀ i : grid0.Coords, EltTy.bits .f32 = 32 ∨ (Rect.block (s := S1024x512) S256x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .f32 = 32 ∨ (Rect.block (s := S512x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S1024x1024.size a
  hwx0_2 : ∀ i : grid0.Coords, EltTy.bits .f32 = 32 ∨ (Rect.block (s := S1024x1024) S256x1024.size (cc0_transform_2 i) (hinb0_2 i)).WholeWords (EltTy.packing .f32)
  hrank1 : 0 < grid1.rank
  hstage1_0 : ∀ j, (stage1_0 j).IsWhole
  nbuf1_0 : grid1.bufCount reads1_0 false = 1
  hreads1_0 : ∀ i i' : grid1.Coords, (∀ a, reads1_0 a = true → i a = i' a) → cc1_transform_0 i = cc1_transform_0 i'
  hinb1_0 : ∀ (i : grid1.Coords) a, (cc1_transform_0 i a + 1) * S256x512.size a ≤ S256x512.size a
  hwx1_0 : ∀ i : grid1.Coords, EltTy.bits .f32 = 32 ∨ (Rect.block (s := S256x512) S256x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S512x1024.size a
  hwx1_1 : ∀ i : grid1.Coords, EltTy.bits .f32 = 32 ∨ (Rect.block (s := S512x1024) S512x1024.size (cc1_transform_1 i) (hinb1_1 i)).WholeWords (EltTy.packing .f32)
  hstage1_2 : ∀ j, (stage1_2 j).IsWhole
  nbuf1_2 : grid1.bufCount reads1_2 false = 1
  hreads1_2 : ∀ i i' : grid1.Coords, (∀ a, reads1_2 a = true → i a = i' a) → cc1_transform_2 i = cc1_transform_2 i'
  hinb1_2 : ∀ (i : grid1.Coords) a, (cc1_transform_2 i a + 1) * S256x1024.size a ≤ S256x1024.size a
  hwx1_2 : ∀ i : grid1.Coords, EltTy.bits .f32 = 32 ∨ (Rect.block (s := S256x1024) S256x1024.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x16x1024.size a ≤ S2x512x1024.size a
  hwx2_0 : ∀ i : grid2.Coords, EltTy.bits .f32 = 32 ∨ (Rect.block (s := S2x512x1024) S1x16x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x128x1024.size a ≤ S2x128x1024.size a
  hwx2_1 : ∀ i : grid2.Coords, EltTy.bits .f32 = 32 ∨ (Rect.block (s := S2x128x1024) S1x128x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x16x128x1024.size a ≤ S2x512x128x1024.size a
  hwx2_2 : ∀ i : grid2.Coords, EltTy.bits .f32 = 32 ∨ (Rect.block (s := S2x512x128x1024) S1x16x128x1024.size (cc2_transform_2 i) (hinb2_2 i)).WholeWords (EltTy.packing .f32)

variable [Facts₀]

def dot_S256x512_S512x1024_S256x1024_1_0_0_1_n_n : DotDims S256x512 S512x1024 S256x1024 where
  lhsContracting := [1]
  rhsContracting := [0]
  lhsNonContracting := [0]
  rhsNonContracting := [1]
  lhsBatch := []
  rhsBatch := []
  wf := dot_S256x512_S512x1024_S256x1024_1_0_0_1_n_n_wf

abbrev win0_0 : Pipeline.Window sig grid0 :=
  Pipeline.Window.ofSpec (Memref.whole main_v4) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S256x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v5) S256x512.size cc1_transform_0 reads1_0 false false 1 stage1_0 sem1_0
    hrank1 hreads1_0 hinb1_0 nbuf1_0 (Memref.isWhole_whole _) hwx1_0 hstage1_0

abbrev win1_1 : Pipeline.Window sig grid1 :=
  Pipeline.Window.ofSpec (Memref.whole main_v3) S512x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S256x1024.size cc1_transform_2 reads1_2 true false 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v7) S1x16x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v9) S1x128x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v10) S1x16x128x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S2x512x512 : Shape := ⟨3, ![2, 512, 512]⟩
abbrev S2x128x512 : Shape := ⟨3, ![2, 128, 512]⟩
abbrev S1024x1024 : Shape := ⟨2, ![1024, 1024]⟩
abbrev S1024x512 : Shape := ⟨2, ![1024, 512]⟩
abbrev S2x512x1024 : Shape := ⟨3, ![2, 512, 1024]⟩
abbrev S2x128x1024 : Shape := ⟨3, ![2, 128, 1024]⟩
abbrev S2x512x1x1024 : Shape := ⟨4, ![2, 512, 1, 1024]⟩
abbrev S2x1x128x1024 : Shape := ⟨4, ![2, 1, 128, 1024]⟩
abbrev S2x512x128x1024 : Shape := ⟨4, ![2, 512, 128, 1024]⟩

abbrev nBuf : Space → Nat
  | .hbm => 12
  | .vmem => 0
  | .smem => 0
  | _ => 0

abbrev bufTy : (tb : Table) → Fin (tcTables nBuf tb) → BufTy
  | .hbm, ⟨0, _⟩ => ⟨S2x512x512, .f32⟩
  | .hbm, ⟨1, _⟩ => ⟨S2x128x512, .f32⟩
  | .hbm, ⟨2, _⟩ => ⟨S1024x1024, .f32⟩
  | .hbm, ⟨3, _⟩ => ⟨S1024x512, .f32⟩
  | .hbm, ⟨4, _⟩ => ⟨S1024x512, .f32⟩
  | .hbm, ⟨5, _⟩ => ⟨S2x512x1024, .f32⟩
  | .hbm, ⟨6, _⟩ => ⟨S2x128x1024, .f32⟩
  | .hbm, ⟨7, _⟩ => ⟨S2x512x1x1024, .f32⟩
  | .hbm, ⟨8, _⟩ => ⟨S2x1x128x1024, .f32⟩
  | .hbm, ⟨9, _⟩ => ⟨S2x512x128x1024, .f32⟩
  | .hbm, ⟨10, _⟩ => ⟨S2x512x128x1024, .f32⟩
  | .hbm, ⟨11, _⟩ => ⟨S2x512x128x1024, .f32⟩
  | _, _ => ⟨S2x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]

class Facts₀ : Prop where
  slices_S1024x1024_S1024x512_0_0 : S1024x1024.Slices ![0, 0] S1024x512
  slices_S1024x1024_S1024x512_0_512 : S1024x1024.Slices ![0, 512] S1024x512
  bcast_S2x512x1024_S2x512x1x1024_0_1_3 : S2x512x1024.BroadcastsInDim S2x512x1x1024 (![0, 1, 3] : Fin 3 → Fin S2x512x1x1024.rank)
  bcast_S2x128x1024_S2x1x128x1024_0_2_3 : S2x128x1024.BroadcastsInDim S2x1x128x1024 (![0, 2, 3] : Fin 3 → Fin S2x1x128x1024.rank)
  bcast_S2x512x1x1024_S2x512x128x1024_0_1_2_3 : S2x512x1x1024.BroadcastsInDim S2x512x128x1024 (![0, 1, 2, 3] : Fin 4 → Fin S2x512x128x1024.rank)
  bcast_S2x1x128x1024_S2x512x128x1024_0_1_2_3 : S2x1x128x1024.BroadcastsInDim S2x512x128x1024 (![0, 1, 2, 3] : Fin 4 → Fin S2x512x128x1024.rank)
  dot_S2x512x512_S1024x512_S2x512x1024_2_1_01_0_n_n_wf : DotDims.WF S2x512x512 S1024x512 S2x512x1024 [2] [1] [0, 1] [0] [] []
  dot_S2x128x512_S1024x512_S2x128x1024_2_1_01_0_n_n_wf : DotDims.WF S2x128x512 S1024x512 S2x128x1024 [2] [1] [0, 1] [0] [] []

variable [Facts₀]

def dot_S2x512x512_S1024x512_S2x512x1024_2_1_01_0_n_n : DotDims S2x512x512 S1024x512 S2x512x1024 where
  lhsContracting := [2]
  rhsContracting := [1]
  lhsNonContracting := [0, 1]
  rhsNonContracting := [0]
  lhsBatch := []
  rhsBatch := []
  wf := dot_S2x512x512_S1024x512_S2x512x1024_2_1_01_0_n_n_wf
def dot_S2x128x512_S1024x512_S2x128x1024_2_1_01_0_n_n : DotDims S2x128x512 S1024x512 S2x128x1024 where
  lhsContracting := [2]
  rhsContracting := [1]
  lhsNonContracting := [0, 1]
  rhsNonContracting := [0]
  lhsBatch := []
  rhsBatch := []
  wf := dot_S2x128x512_S1024x512_S2x128x1024_2_1_01_0_n_n_wf

class Facts : Prop extends Facts₀ where

variable [Facts]
-- ==== Proof.JointSpec.lean ====
/-
  The joint network's output as ONE function of its three arguments, and the kernel's arrangement of it.

  With encoder states `enc[b, t, ·]`, decoder states `dec[b, u, ·]` (both of width 512) and a weight matrix
  `W[v, ·]` of width 1024, the output entry at `(b, t, u, v)` is
      ∑ d, enc[b, t, d] · W[v, d]  +  ∑ d, dec[b, u, d] · W[v, 512 + d].
  The kernel reaches it by another arrangement: each stack of states is flattened to a matrix of rows, multiplied
  by the transposed left (or right) half of `W`, the product is cut back into a stack, and the two stacks are added
  with the encoder's rows repeated along `u` and the decoder's along `t`.  Both arrangements are the same sums of
  the same products, entry by entry; no law beyond reading each layout step at an index is needed, so nothing here
  asks the entries to be finite.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Joint

open Idealize.ShloMosaic Idealize.ShloMosaic.ValueIdx

/-- Column `d` of the left half of the weight matrix. -/
def lo (d : Fin 512) : Fin 1024 := ⟨d.val, by have := d.isLt; omega⟩
/-- Column `d` of the right half of the weight matrix. -/
def hi (d : Fin 512) : Fin 1024 := ⟨512 + d.val, by have := d.isLt; omega⟩

/-- Row `(b, r)` of a stack of states against row `v` of the weight matrix read at the columns `col`. -/
def projAt {R : Nat} (X : (⟨3, ![2, R, 512]⟩ : Shape).Idx → EReal) (W : (⟨2, ![1024, 1024]⟩ : Shape).Idx → EReal)
    (col : Fin 512 → Fin 1024) (b : Fin 2) (r : Fin R) (v : Fin 1024) : EReal :=
  ∑ d : Fin 512, X (ix3 b r d) * W (ix2 v (col d))

/-- THE SPECIFICATION: the joint output at `(b, t, u, v)`. -/
def joint (enc : (⟨3, ![2, 512, 512]⟩ : Shape).Idx → EReal) (dec : (⟨3, ![2, 128, 512]⟩ : Shape).Idx → EReal)
    (W : (⟨2, ![1024, 1024]⟩ : Shape).Idx → EReal) : (⟨4, ![2, 512, 128, 1024]⟩ : Shape).Idx → EReal :=
  fun i => projAt enc W lo (i 0) (i 1) (i 3) + projAt dec W hi (i 0) (i 2) (i 3)

/-- The product of an `[M, 512]` matrix by a `[512, 1024]` matrix. -/
def mm {M : Nat} (A : (⟨2, ![M, 512]⟩ : Shape).Idx → EReal) (Bm : (⟨2, ![512, 1024]⟩ : Shape).Idx → EReal) :
    (⟨2, ![M, 1024]⟩ : Shape).Idx → EReal :=
  fun j => ∑ k : Fin 512, A (ix2 (j 0) k) * Bm (ix2 k (j 1))

/-- The sum of two stacks, the first repeated along the third axis and the second along the second. -/
def badd (E : (⟨3, ![2, 512, 1024]⟩ : Shape).Idx → EReal) (D : (⟨3, ![2, 128, 1024]⟩ : Shape).Idx → EReal) :
    (⟨4, ![2, 512, 128, 1024]⟩ : Shape).Idx → EReal :=
  fun i => E (ix3 (i 0) (i 1) (i 3)) + D (ix3 (i 0) (i 2) (i 3))

/-- The product read at an index whose two coordinates are `p` and `q`. -/
theorem mm_apply {M : Nat} (A : (⟨2, ![M, 512]⟩ : Shape).Idx → EReal) (Bm : (⟨2, ![512, 1024]⟩ : Shape).Idx → EReal)
    (j : (⟨2, ![M, 1024]⟩ : Shape).Idx) (p : Fin M) (q : Fin 1024) (h0 : (j 0).val = p.val) (h1 : (j 1).val = q.val) :
    mm A Bm j = ∑ k : Fin 512, A (ix2 p k) * Bm (ix2 k q) := by
  obtain rfl : j = ix2 p q := funext fun a => Fin.ext (match a with | ⟨0, _⟩ => h0 | ⟨1, _⟩ => h1)
  rfl

/-- The repeated sum read at an index whose four coordinates are `b`, `t`, `u` and `v`. -/
theorem badd_apply (E : (⟨3, ![2, 512, 1024]⟩ : Shape).Idx → EReal) (D : (⟨3, ![2, 128, 1024]⟩ : Shape).Idx → EReal)
    (i : (⟨4, ![2, 512, 128, 1024]⟩ : Shape).Idx) (b : Fin 2) (t : Fin 512) (u : Fin 128) (v : Fin 1024)
    (h0 : (i 0).val = b.val) (h1 : (i 1).val = t.val) (h2 : (i 2).val = u.val) (h3 : (i 3).val = v.val) :
    badd E D i = E (ix3 b t v) + D (ix3 b u v) := by
  obtain rfl : i = ix4 b t u v :=
    funext fun a => Fin.ext (match a with | ⟨0, _⟩ => h0 | ⟨1, _⟩ => h1 | ⟨2, _⟩ => h2 | ⟨3, _⟩ => h3)
  rfl

/-- Row `b·R + r` of the flattened stack. -/
def flatRow {R M : Nat} (hM : 2 * R = M) (b : Fin 2) (r : Fin R) : Fin M :=
  ⟨b.val * R + r.val, by
    have hb : b.val * R ≤ 1 * R := Nat.mul_le_mul_right R (by have := b.isLt; omega)
    have := r.isLt; omega⟩

/-- ONE HALF of the kernel's arrangement, read at an entry: flatten the stack, multiply by the transposed half of the
    weight matrix that starts at column `o`, cut the product back into a stack. -/
theorem half_apply {R M : Nat} (hM : 2 * R = M) (o : Nat) (col : Fin 512 → Fin 1024) (hcol : ∀ d, (col d).val = o + d.val)
    (X : (⟨3, ![2, R, 512]⟩ : Shape).Idx → EReal) (W : (⟨2, ![1024, 1024]⟩ : Shape).Idx → EReal)
    (hX : (⟨3, ![2, R, 512]⟩ : Shape).ShapeCasts ⟨2, ![M, 512]⟩)
    (hs : (⟨2, ![1024, 1024]⟩ : Shape).Slices ![0, o] ⟨2, ![1024, 512]⟩)
    (hT : (⟨2, ![1024, 512]⟩ : Shape).Transposes [1, 0] ⟨2, ![512, 1024]⟩)
    (hP : (⟨2, ![M, 1024]⟩ : Shape).ShapeCasts ⟨3, ![2, R, 1024]⟩)
    (b : Fin 2) (r : Fin R) (v : Fin 1024) :
    shapeCast ⟨3, ![2, R, 1024]⟩
        (mm (shapeCast ⟨2, ![M, 512]⟩ X hX)
          (transpose ⟨2, ![512, 1024]⟩ [1, 0] (extractStridedSlice ⟨2, ![1024, 512]⟩ ![0, o] W hs) hT)) hP (ix3 b r v)
      = projAt X W col b r v := by
  rw [shapeCast_apply _ hP (ix3 b r v) (ix2 (flatRow hM b r) v) (by
    rw [Shape.rowMajor_val_two, Shape.rowMajor_val_three]
    show (b.val * R + r.val) * 1024 + v.val = (b.val * R + r.val) * 1024 + v.val
    rfl)]
  unfold mm projAt
  refine Finset.sum_congr rfl fun k _ => ?_
  have e1 : shapeCast ⟨2, ![M, 512]⟩ X hX (ix2 (flatRow hM b r) k) = X (ix3 b r k) :=
    shapeCast_apply X hX _ _ (by
      rw [Shape.rowMajor_val_two, Shape.rowMajor_val_three]
      show (b.val * R + r.val) * 512 + k.val = (b.val * R + r.val) * 512 + k.val
      rfl)
  have e2 : transpose ⟨2, ![512, 1024]⟩ [1, 0] (extractStridedSlice ⟨2, ![1024, 512]⟩ ![0, o] W hs) hT (ix2 k v)
      = W (ix2 v (col k)) := by
    rw [transpose_ix2_apply]
    refine extractStridedSlice_apply _ W hs _ _ fun a => ?_
    match a with
    | ⟨0, _⟩ => show v.val = 0 + v.val; omega
    | ⟨1, _⟩ => show (col k).val = o + k.val; exact hcol k
  show shapeCast ⟨2, ![M, 512]⟩ X hX (ix2 (flatRow hM b r) k)
      * transpose ⟨2, ![512, 1024]⟩ [1, 0] (extractStridedSlice ⟨2, ![1024, 512]⟩ ![0, o] W hs) hT (ix2 k v) = _
  rw [e1, e2]

/-- THE KERNEL'S ARRANGEMENT IS THE SPECIFICATION. -/
theorem arrangement_eq_joint (enc : (⟨3, ![2, 512, 512]⟩ : Shape).Idx → EReal) (dec : (⟨3, ![2, 128, 512]⟩ : Shape).Idx → EReal)
    (W : (⟨2, ![1024, 1024]⟩ : Shape).Idx → EReal)
    (hE : (⟨3, ![2, 512, 512]⟩ : Shape).ShapeCasts ⟨2, ![1024, 512]⟩)
    (hD : (⟨3, ![2, 128, 512]⟩ : Shape).ShapeCasts ⟨2, ![256, 512]⟩)
    (hs0 : (⟨2, ![1024, 1024]⟩ : Shape).Slices ![0, 0] ⟨2, ![1024, 512]⟩)
    (hs1 : (⟨2, ![1024, 1024]⟩ : Shape).Slices ![0, 512] ⟨2, ![1024, 512]⟩)
    (hT : (⟨2, ![1024, 512]⟩ : Shape).Transposes [1, 0] ⟨2, ![512, 1024]⟩)
    (hP0 : (⟨2, ![1024, 1024]⟩ : Shape).ShapeCasts ⟨3, ![2, 512, 1024]⟩)
    (hP1 : (⟨2, ![256, 1024]⟩ : Shape).ShapeCasts ⟨3, ![2, 128, 1024]⟩) :
    badd
      (shapeCast ⟨3, ![2, 512, 1024]⟩
        (mm (shapeCast ⟨2, ![1024, 512]⟩ enc hE)
          (transpose ⟨2, ![512, 1024]⟩ [1, 0] (extractStridedSlice ⟨2, ![1024, 512]⟩ ![0, 0] W hs0) hT)) hP0)
      (shapeCast ⟨3, ![2, 128, 1024]⟩
        (mm (shapeCast ⟨2, ![256, 512]⟩ dec hD)
          (transpose ⟨2, ![512, 1024]⟩ [1, 0] (extractStridedSlice ⟨2, ![1024, 512]⟩ ![0, 512] W hs1) hT)) hP1)
      = joint enc dec W := by
  funext i
  obtain ⟨b, t, u, v, rfl⟩ : ∃ (b : Fin 2) (t : Fin 512) (u : Fin 128) (v : Fin 1024), i = ix4 b t u v :=
    ⟨i 0, i 1, i 2, i 3, eq_ix4 i⟩
  exact congrArg₂ (· + ·)
    (half_apply (R := 512) (M := 1024) rfl 0 lo (fun d => by show d.val = 0 + d.val; omega) enc W hE hs0 hT hP0 b t v)
    (half_apply (R := 128) (M := 256) rfl 512 hi (fun d => rfl) dec W hD hs1 hT hP1 b u v)

end Joint

end
-- ==== Proof.LibPlainDot.lean ====
/-
  A plain matrix product read at an entry.

  For dimension numbers that contract the left operand's second axis with the right operand's first axis, with no
  batch axes — an M×K array times a K×N array — the contraction's sum at the result entry (p, q) is the textbook
  `∑ i : Fin K, lhs (p, i) * rhs (i, q)`.  The statement is for ANY such record (its well-formedness proof is
  irrelevant), so it serves a kernel's `tpu.matmul` and a host `dot_general` at every size alike.
-/
import Idealize.ShloMosaic.Lib.ValueIdx
import Idealize.ShloMosaic.PureOps.Ideal.Laws

noncomputable section

open scoped BigOperators

namespace PlainDot

open Idealize.ShloMosaic Idealize.ShloMosaic.ValueIdx

variable {M K N : Nat}

/-- The dimension numbers of a plain product: contract axis 1 of the left operand with axis 0 of the right one;
    the left operand's axis 0 and the right operand's axis 1 are the result's axes; nothing is batched. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![M, K]⟩ ⟨2, ![K, N]⟩ ⟨2, ![M, N]⟩}

/-- The left operand's row coordinate is the result's row. -/
theorem lhs_row (h : IsPlain d) (j : (⟨2, ![M, N]⟩ : Shape).Idx) (k : d.contr.Idx) :
    (d.lhsIdx j k 0 : ℕ) = j 0 := by
  obtain ⟨lc, rc, ln, rn, lb, rb, wf⟩ := d
  obtain ⟨h1, h2, h3, h4, h5, h6⟩ := h
  simp only at h1 h2 h3 h4 h5 h6
  subst h1 h2 h3 h4 h5 h6
  simp [DotDims.lhsIdx]; rfl

/-- The right operand's column coordinate is the result's column. -/
theorem rhs_col (h : IsPlain d) (j : (⟨2, ![M, N]⟩ : Shape).Idx) (k : d.contr.Idx) :
    (d.rhsIdx j k 1 : ℕ) = j 1 := by
  obtain ⟨lc, rc, ln, rn, lb, rb, wf⟩ := d
  obtain ⟨h1, h2, h3, h4, h5, h6⟩ := h
  simp only at h1 h2 h3 h4 h5 h6
  subst h1 h2 h3 h4 h5 h6
  simp [DotDims.rhsIdx]; rfl

theorem contr_rank (h : IsPlain d) : d.contr.rank = 1 := by
  rw [d.rank_contr, h.lc]; rfl

theorem contr_size (h : IsPlain d) : d.contr.size ⟨0, by rw [contr_rank h]; exact Nat.one_pos⟩ = K := by
  obtain ⟨lc, rc, ln, rn, lb, rb, wf⟩ := d
  obtain ⟨h1, h2, h3, h4, h5, h6⟩ := h
  simp only at h1 h2 h3 h4 h5 h6
  subst h1 h2 h3 h4 h5 h6
  rfl

/-- THE SUM: over the one contracted axis, entry by entry. -/
theorem sum_eq (h : IsPlain d) (lhs : (⟨2, ![M, K]⟩ : Shape).Idx → EReal) (rhs : (⟨2, ![K, N]⟩ : Shape).Idx → EReal)
    (p : Fin M) (q : Fin N) :
    ∑ k : d.contr.Idx, lhs (d.lhsIdx (ix2 p q) k) * rhs (d.rhsIdx (ix2 p q) k) = ∑ i : Fin K, lhs (ix2 p i) * rhs (ix2 i q) := by
  rw [← Equiv.sum_comp (contrEquiv1 d K (contr_rank h) (contr_size h)).symm]
  refine Finset.sum_congr rfl fun i _ => ?_
  have hk := contrEquiv1_symm_val d K (contr_rank h) (contr_size h) i
  have el : d.lhsIdx (ix2 p q) ((contrEquiv1 d K (contr_rank h) (contr_size h)).symm i) = ix2 p i := by
    funext a; refine Fin.ext ?_
    match a with
    | ⟨0, _⟩ => exact lhs_row h _ _
    | ⟨1, _⟩ => exact (d.lhsIdx_val_of_single h.lc _ _).trans hk
  have er : d.rhsIdx (ix2 p q) ((contrEquiv1 d K (contr_rank h) (contr_size h)).symm i) = ix2 i q := by
    funext a; refine Fin.ext ?_
    match a with
    | ⟨0, _⟩ => exact (d.rhsIdx_val_of_single h.rc _ _).trans hk
    | ⟨1, _⟩ => exact rhs_col h _ _
  rw [el, er]

/-- A kernel's matrix product into a zero accumulator, at the exact instance, read at an entry. -/
theorem matmul_zero_apply (h : IsPlain d) {φ₁ φ₂ : FTy} (prec : Option ContractPrecision)
    (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ i : Fin K, lhs (ix2 p i) * rhs (ix2 i q) :=
  (Ideal.matmul_constant_zero_apply d prec lhs rhs (ix2 p q)).trans (sum_eq h lhs rhs p q)

/-- The host's `dot_general`, at the exact instance, read at an entry: the same sum. -/
theorem dotGeneral_apply (h : IsPlain d) {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ i : Fin K, lhs (ix2 p i) * rhs (ix2 i q) :=
  (Ideal.dotGeneral_apply d prec sched lhs rhs (ix2 p q)).trans (sum_eq h lhs rhs p q)

end PlainDot

end
-- ==== Proof.ProjBlock.lean ====
/-
  What one grid point of a projection region leaves in its output block.

  The body loads a `[256, 512]` block of rows and the whole `[512, 1024]` transposed weight half, narrows both to
  bf16 (no change of value on the extended reals), multiplies them into a zero accumulator and stores the product:
  entry `(p, q)` of the block is `∑ k, rows (p, k) · weights (k, q)`.  The two projection regions print the same body.
-/
import proofs.«100149_j7310034338570_1_alg».proof.Proof.Gen.KernelIdeal.Frame
import proofs.«100149_j7310034338570_1_alg».proof.Proof.LibPlainDot
import Idealize.ShloMosaic.Lib.Pipeline.Value
import Idealize.ShloMosaic.Lib.ValueIdx
import Idealize.ShloMosaic.PureOps.Ideal.Laws

noncomputable section

open scoped BigOperators

namespace Cert.KernelIdeal.ProjBlock

open Cert.KernelIdeal Cert.KernelIdeal.Gen
open Idealize.ShloMosaic Idealize.ShloMosaic.TcCoe Idealize.ShloMosaic.ValueIdx

theorem hz : (![0, 0] : Fin 2 → Nat) = fun _ => 0 := funext fun a => by fin_cases a <;> rfl

/-- The contraction of the body's matrix product is the plain one: rows by columns. -/
theorem plain : PlainDot.IsPlain dot_S256x512_S512x1024_S256x1024_1_0_0_1_n_n := ⟨rfl, rfl, rfl, rfl, rfl, rfl⟩

/-- Region 0's payload, the product of its two loaded blocks, at an entry. -/
theorem pay0_apply (x0 : FVec Ideal S256x512 .f32) (x1 : FVec Ideal S512x1024 .f32) (p : Fin 256) (q : Fin 1024) :
    k0_pay1 (F := Ideal) x0 x1 (ix2 p q) = ∑ k : Fin 512, x0 (ix2 p k) * x1 (ix2 k q) := by
  unfold k0_pay1
  refine (PlainDot.matmul_zero_apply plain none _ _ p q).trans ?_
  refine Finset.sum_congr rfl fun k _ => ?_
  rw [truncf_apply, truncf_apply, shapeCast_self, shapeCast_self]

/-- Region 1's payload: the same body. -/
theorem pay1_apply (x0 : FVec Ideal S256x512 .f32) (x1 : FVec Ideal S512x1024 .f32) (p : Fin 256) (q : Fin 1024) :
    k1_pay1 (F := Ideal) x0 x1 (ix2 p q) = ∑ k : Fin 512, x0 (ix2 p k) * x1 (ix2 k q) := by
  unfold k1_pay1
  refine (PlainDot.matmul_zero_apply plain none _ _ p q).trans ?_
  refine Finset.sum_congr rfl fun k _ => ?_
  rw [truncf_apply, truncf_apply, shapeCast_self, shapeCast_self]

/-- Region 0's output block after the body. -/
theorem out0_apply (x0 : FVec Ideal S256x512 .f32) (x1 : FVec Ideal S512x1024 .f32) (p : Fin 256) (q : Fin 1024) :
    out0_2 (F := Ideal) x0 x1 (ix2 p q) = ∑ k : Fin 512, x0 (ix2 p k) * x1 (ix2 k q) := by
  unfold out0_2
  rw [View.canon_unit_zero hz]
  simp only [View.ld_unit_zero (S := S256x512) hz, View.ld_unit_zero (S := S512x1024) hz]
  exact pay0_apply x0 x1 p q

/-- Region 1's output block after the body. -/
theorem out1_apply (x0 : FVec Ideal S256x512 .f32) (x1 : FVec Ideal S512x1024 .f32) (p : Fin 256) (q : Fin 1024) :
    out1_2 (F := Ideal) x0 x1 (ix2 p q) = ∑ k : Fin 512, x0 (ix2 p k) * x1 (ix2 k q) := by
  unfold out1_2
  rw [View.canon_unit_zero hz]
  simp only [View.ld_unit_zero (S := S256x512) hz, View.ld_unit_zero (S := S512x1024) hz]
  exact pay1_apply x0 x1 p q

end Cert.KernelIdeal.ProjBlock

end
-- ==== Proof.EncRows.lean ====
/-
  The first projection region: the flattened encoder rows times the transposed left weight half.

  The grid has four points; point `t` reads rows `256·t … 256·t + 255` of the `[1024, 512]` row matrix and the whole
  `[512, 1024]` weight matrix, and writes rows `256·t … 256·t + 255` of the `[1024, 1024]` product.  What it writes is
  its block of ONE array, the matrix product of the two arrays as the region finds them; the four row blocks tile the
  product, so after the region the output array is that product.
-/
import proofs.«100149_j7310034338570_1_alg».proof.Proof.Gen.KernelIdeal.Frame
import proofs.«100149_j7310034338570_1_alg».proof.Proof.ProjBlock
import proofs.«100149_j7310034338570_1_alg».proof.Proof.JointSpec
import Idealize.ShloMosaic.Lib.Pipeline.Value
import Idealize.ShloMosaic.Lib.ValueIdx

set_option maxRecDepth 16384

noncomputable section

open scoped BigOperators

namespace Cert.KernelIdeal.EncRows

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The printed index maps over the grid: the row windows move with the point, the weight window stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem lt_four (t : Fin cfg0.N) : t.val < 4 :=
  Nat.lt_of_lt_of_eq t.isLt (show cfg0.N = 4 from N_0)

/-- Row `p` of point `t`'s block of the row matrix is row `256·t + p` of the matrix. -/
theorem rows_block (c : Dev nD) (t : Fin cfg0.N) (p : Fin 256) (k : Fin 512) (P : Fin 1024) (hP : P.val = t.val * 256 + p.val) :
    (iblk0 V c 0 t : FVec Ideal S256x512 .f32) (ix2 p k) = (V c main_v4 : FVec Ideal S1024x512 .f32) (ix2 P k) := by
  obtain ⟨e0, e1, -⟩ := idx_facts t
  unfold iblk0
  rw [View.read_apply]
  show V c main_v4 _ = V c main_v4 _
  refine congrArg (V c main_v4) (funext fun a => Fin.ext ?_)
  match a with
  | ⟨0, _⟩ => show win0_0.index t (0 : Fin 2) * 256 + 1 * p.val = P.val; rw [e0, hP]; omega
  | ⟨1, _⟩ => show win0_0.index t (1 : Fin 2) * 512 + 1 * k.val = k.val; rw [e1]; omega

/-- Every point's block of the weight matrix is the whole matrix. -/
theorem weights_block (c : Dev nD) (t : Fin cfg0.N) (k : Fin 512) (q : Fin 1024) :
    (iblk0 V c 1 t : FVec Ideal S512x1024 .f32) (ix2 k q) = (V c main_v1 : FVec Ideal S512x1024 .f32) (ix2 k q) := by
  obtain ⟨-, -, e2, e3, -⟩ := idx_facts t
  unfold iblk0
  rw [View.read_apply]
  show V c main_v1 _ = V c main_v1 _
  refine congrArg (V c main_v1) (funext fun a => Fin.ext ?_)
  match a with
  | ⟨0, _⟩ => show win0_1.index t (0 : Fin 2) * 512 + 1 * k.val = k.val; rw [e2]; omega
  | ⟨1, _⟩ => show win0_1.index t (1 : Fin 2) * 1024 + 1 * q.val = q.val; rw [e3]; omega

/-- WHAT POINT `t` WRITES BACK is block `t` of the product of the two arrays as the region finds them. -/
theorem flushed_eq (c : Dev nD) (t : Fin cfg0.N) :
    (dat0 V c).flushed 2 t = ((cfg0.win 2).blk t).view.read (Elt Ideal) (Joint.mm (V c main_v4) (V c main_v1)) := by
  show (cfg0.win 2).cut (grid0.coords t) ((dat0 V c).after 2 t) = _
  rw [after0_2]
  obtain ⟨-, -, -, -, e4, e5⟩ := idx_facts t
  have ht := lt_four t
  funext j
  obtain ⟨p, q, rfl⟩ : ∃ (p : Fin 256) (q : Fin 1024), j = ix2 p q := ⟨j 0, j 1, eq_ix2 j⟩
  show out0_2 (iblk0 V c 0 t) (iblk0 V c 1 t) (ix2 p q)
    = Joint.mm (V c main_v4) (V c main_v1) (((cfg0.win 2).blk t).view.emb (ix2 p q))
  refine (ProjBlock.out0_apply (iblk0 V c 0 t) (iblk0 V c 1 t) p q).trans ?_
  have hp := p.isLt
  refine Eq.trans ?_ (Joint.mm_apply (V c main_v4) (V c main_v1) _ ⟨t.val * 256 + p.val, by omega⟩ q
    (by show win0_2.index t (0 : Fin 2) * 256 + 1 * p.val = t.val * 256 + p.val; rw [e4]; omega)
    (by show win0_2.index t (1 : Fin 2) * 1024 + 1 * q.val = q.val; rw [e5]; omega)).symm
  refine Finset.sum_congr rfl fun k _ => ?_
  exact congrArg₂ (· * ·) (rows_block V c t p k ⟨t.val * 256 + p.val, by omega⟩ rfl) (weights_block V c t k q)

/-- An index of the product is in point `t`'s block iff each coordinate is in the block's range on its axis. -/
theorem mem_blk (t : Fin cfg0.N) (i : S1024x1024.Idx) :
    i ∈ ((cfg0.win 2).blk t).view.set ↔ ∀ a : Fin 2, win0_2.index t a * S256x1024.size a ≤ (i a).val ∧ (i a).val < win0_2.index t a * S256x1024.size a + S256x1024.size a := by
  show i ∈ ((View.whole main_v6).slice (win0_2.rect t)).set ↔ _
  rw [View.set_slice_whole, Rect.mem_set_unit]
  exact Iff.rfl

/-- The row blocks tile the product: row `r` is in the block of point `r / 256`. -/
theorem cover (i : S1024x1024.Idx) : ∃ t : Fin cfg0.N, (cfg0.win 2).flush t = true ∧ i ∈ ((cfg0.win 2).blk t).view.set := by
  have hi0 : (i 0).val < 1024 := (i 0).isLt
  have hi1 : (i 1).val < 1024 := (i 1).isLt
  obtain ⟨t, ht⟩ : ∃ t : Fin cfg0.N, t.val = (i 0).val / 256 := ⟨⟨(i 0).val / 256, by rw [show cfg0.N = 4 from N_0]; omega⟩, rfl⟩
  obtain ⟨-, -, -, -, e4, e5⟩ := idx_facts t
  refine ⟨t, flush0_2 t, ?_⟩
  rw [mem_blk]
  intro a
  match a with
  | ⟨0, _⟩ => show win0_2.index t (0 : Fin 2) * 256 ≤ (i 0).val ∧ (i 0).val < win0_2.index t (0 : Fin 2) * 256 + 256; rw [e4, ht]; omega
  | ⟨1, _⟩ => show win0_2.index t (1 : Fin 2) * 1024 ≤ (i 1).val ∧ (i 1).val < win0_2.index t (1 : Fin 2) * 1024 + 1024; rw [e5]; omega

/-- THE ARRAY after the region: the product. -/
theorem array_eq (c : Dev nD) : (dat0 V c).arrAt 2 cfg0.N = Joint.mm (V c main_v4) (V c main_v1) :=
  (dat0 V c).arrAt_eq_of_cover 2 (Joint.mm (V c main_v4) (V c main_v1)) (fun t _ => flushed_eq V c t) cover

end Cert.KernelIdeal.EncRows

end
-- ==== Proof.DecRows.lean ====
/-
  The second projection region: the flattened decoder rows times the transposed right weight half.

  The grid has one point, which reads the whole `[256, 512]` row matrix and the whole `[512, 1024]` weight matrix and
  writes the whole `[256, 1024]` product: after the region the output array is the matrix product of the two arrays as
  the region finds them.
-/
import proofs.«100149_j7310034338570_1_alg».proof.Proof.Gen.KernelIdeal.Frame
import proofs.«100149_j7310034338570_1_alg».proof.Proof.ProjBlock
import proofs.«100149_j7310034338570_1_alg».proof.Proof.JointSpec
import Idealize.ShloMosaic.Lib.Pipeline.Value
import Idealize.ShloMosaic.Lib.ValueIdx

set_option maxRecDepth 16384

noncomputable section

open scoped BigOperators

namespace Cert.KernelIdeal.DecRows

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The printed index maps over the one-point grid: every window sits at block (0, 0). -/
theorem idx_facts : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

/-- The point's block of the row matrix is the whole matrix. -/
theorem rows_block (c : Dev nD) (t : Fin cfg1.N) (p : Fin 256) (k : Fin 512) :
    (iblk1 V c 0 t : FVec Ideal S256x512 .f32) (ix2 p k) = (V c main_v5 : FVec Ideal S256x512 .f32) (ix2 p k) := by
  obtain ⟨e0, e1, -⟩ := idx_facts t
  unfold iblk1
  rw [View.read_apply]
  show V c main_v5 _ = V c main_v5 _
  refine congrArg (V c main_v5) (funext fun a => Fin.ext ?_)
  match a with
  | ⟨0, _⟩ => show win1_0.index t (0 : Fin 2) * 256 + 1 * p.val = p.val; rw [e0]; omega
  | ⟨1, _⟩ => show win1_0.index t (1 : Fin 2) * 512 + 1 * k.val = k.val; rw [e1]; omega

/-- The point's block of the weight matrix is the whole matrix. -/
theorem weights_block (c : Dev nD) (t : Fin cfg1.N) (k : Fin 512) (q : Fin 1024) :
    (iblk1 V c 1 t : FVec Ideal S512x1024 .f32) (ix2 k q) = (V c main_v3 : FVec Ideal S512x1024 .f32) (ix2 k q) := by
  obtain ⟨-, -, e2, e3, -⟩ := idx_facts t
  unfold iblk1
  rw [View.read_apply]
  show V c main_v3 _ = V c main_v3 _
  refine congrArg (V c main_v3) (funext fun a => Fin.ext ?_)
  match a with
  | ⟨0, _⟩ => show win1_1.index t (0 : Fin 2) * 512 + 1 * k.val = k.val; rw [e2]; omega
  | ⟨1, _⟩ => show win1_1.index t (1 : Fin 2) * 1024 + 1 * q.val = q.val; rw [e3]; omega

/-- WHAT THE POINT WRITES BACK is its block of the product of the two arrays as the region finds them. -/
theorem flushed_eq (c : Dev nD) (t : Fin cfg1.N) :
    (dat1 V c).flushed 2 t = ((cfg1.win 2).blk t).view.read (Elt Ideal) (Joint.mm (V c main_v5) (V c main_v3)) := by
  show (cfg1.win 2).cut (grid1.coords t) ((dat1 V c).after 2 t) = _
  rw [after1_2]
  obtain ⟨-, -, -, -, e4, e5⟩ := idx_facts t
  funext j
  obtain ⟨p, q, rfl⟩ : ∃ (p : Fin 256) (q : Fin 1024), j = ix2 p q := ⟨j 0, j 1, eq_ix2 j⟩
  show out1_2 (iblk1 V c 0 t) (iblk1 V c 1 t) (ix2 p q)
    = Joint.mm (V c main_v5) (V c main_v3) (((cfg1.win 2).blk t).view.emb (ix2 p q))
  refine (ProjBlock.out1_apply (iblk1 V c 0 t) (iblk1 V c 1 t) p q).trans ?_
  refine Eq.trans ?_ (Joint.mm_apply (V c main_v5) (V c main_v3) _ p q
    (by show win1_2.index t (0 : Fin 2) * 256 + 1 * p.val = p.val; rw [e4]; omega)
    (by show win1_2.index t (1 : Fin 2) * 1024 + 1 * q.val = q.val; rw [e5]; omega)).symm
  refine Finset.sum_congr rfl fun k _ => ?_
  exact congrArg₂ (· * ·) (rows_block V c t p k) (weights_block V c t k q)

/-- An index of the product is in the point's block iff each coordinate is in the block's range on its axis. -/
theorem mem_blk (t : Fin cfg1.N) (i : S256x1024.Idx) :
    i ∈ ((cfg1.win 2).blk t).view.set ↔ ∀ a : Fin 2, win1_2.index t a * S256x1024.size a ≤ (i a).val ∧ (i a).val < win1_2.index t a * S256x1024.size a + S256x1024.size a := by
  show i ∈ ((View.whole main_v8).slice (win1_2.rect t)).set ↔ _
  rw [View.set_slice_whole, Rect.mem_set_unit]
  exact Iff.rfl

/-- The one block is the whole product. -/
theorem cover (i : S256x1024.Idx) : ∃ t : Fin cfg1.N, (cfg1.win 2).flush t = true ∧ i ∈ ((cfg1.win 2).blk t).view.set := by
  have hi0 : (i 0).val < 256 := (i 0).isLt
  have hi1 : (i 1).val < 1024 := (i 1).isLt
  obtain ⟨-, -, -, -, e4, e5⟩ := idx_facts t1_0
  refine ⟨t1_0, flush1_2 t1_0, ?_⟩
  rw [mem_blk]
  intro a
  match a with
  | ⟨0, _⟩ => show win1_2.index t1_0 (0 : Fin 2) * 256 ≤ (i 0).val ∧ (i 0).val < win1_2.index t1_0 (0 : Fin 2) * 256 + 256; rw [e4]; omega
  | ⟨1, _⟩ => show win1_2.index t1_0 (1 : Fin 2) * 1024 ≤ (i 1).val ∧ (i 1).val < win1_2.index t1_0 (1 : Fin 2) * 1024 + 1024; rw [e5]; omega

/-- THE ARRAY after the region: the product. -/
theorem array_eq (c : Dev nD) : (dat1 V c).arrAt 2 cfg1.N = Joint.mm (V c main_v5) (V c main_v3) :=
  (dat1 V c).arrAt_eq_of_cover 2 (Joint.mm (V c main_v5) (V c main_v3)) (fun t _ => flushed_eq V c t) cover

end Cert.KernelIdeal.DecRows

end
-- ==== Proof.AddBlock.lean ====
/-
  What one grid point of the broadcast-add region leaves in its output block.

  The body loads a `[1, 16, 1024]` block `e` of projected encoder rows and a `[1, 128, 1024]` block `d` of projected
  decoder rows, repeats the first along a new middle axis and the second along a new leading axis, adds, and stores
  the `[1, 16, 128, 1024]` block: entry `(0, s, u, v)` is `e (0, s, v) + d (0, u, v)`.
-/
import proofs.«100149_j7310034338570_1_alg».proof.Proof.Gen.KernelIdeal.Frame
import Idealize.ShloMosaic.Lib.Pipeline.Value
import Idealize.ShloMosaic.Lib.ValueIdx
import Idealize.ShloMosaic.Lib.ValueLayout

noncomputable section

namespace Cert.KernelIdeal.AddBlock

open Cert.KernelIdeal Cert.KernelIdeal.Gen
open Idealize.ShloMosaic Idealize.ShloMosaic.TcCoe Idealize.ShloMosaic.ValueIdx

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The encoder block with its unit axis moved to the middle and repeated there. -/
theorem enc_part (e : Vec Ideal S1x16x1024 .f32) (s : Fin 16) (u : Fin 128) (v : Fin 1024) :
    broadcastTo S16x128x1024 (shapeCast S16x1x1024 (shapeCast S16x1024 e shapeCasts_S1x16x1024_S16x1024) shapeCasts_S16x1024_S16x1x1024)
        broadcasts_S16x1x1024_S16x128x1024 (ix3 s u v) = e (ix3 (0 : Fin 1) s v) := by
  rw [broadcastTo_apply _ broadcasts_S16x1x1024_S16x128x1024 (ix3 s u v) (ix3 s (0 : Fin 1) v) (fun a => by
    match a with
    | ⟨0, _⟩ => show s.val = if (16 : Nat) = 1 then 0 else s.val; rw [if_neg (by decide)]
    | ⟨1, _⟩ => show 0 = if (1 : Nat) = 1 then 0 else u.val; rw [if_pos rfl]
    | ⟨2, _⟩ => show v.val = if (1024 : Nat) = 1 then 0 else v.val; rw [if_neg (by decide)])]
  rw [shapeCast_apply _ shapeCasts_S16x1024_S16x1x1024 (ix3 s (0 : Fin 1) v) (ix2 s v) (by
    rw [Shape.rowMajor_val_two, Shape.rowMajor_val_three]
    show s.val * 1024 + v.val = (s.val * 1 + 0) * 1024 + v.val
    omega)]
  exact shapeCast_1ab_ab_apply e shapeCasts_S1x16x1024_S16x1024 s v

/-- The decoder block repeated along the new leading axis. -/
theorem dec_part (d : Vec Ideal S1x128x1024 .f32) (s : Fin 16) (u : Fin 128) (v : Fin 1024) :
    broadcastTo S16x128x1024 (shapeCast S1x128x1024 (shapeCast S128x1024 d shapeCasts_S1x128x1024_S128x1024) shapeCasts_S128x1024_S1x128x1024)
        broadcasts_S1x128x1024_S16x128x1024 (ix3 s u v) = d (ix3 (0 : Fin 1) u v) := by
  rw [broadcastTo_apply _ broadcasts_S1x128x1024_S16x128x1024 (ix3 s u v) (ix3 (0 : Fin 1) u v) (fun a => by
    match a with
    | ⟨0, _⟩ => show 0 = if (1 : Nat) = 1 then 0 else s.val; rw [if_pos rfl]
    | ⟨1, _⟩ => show u.val = if (128 : Nat) = 1 then 0 else u.val; rw [if_neg (by decide)]
    | ⟨2, _⟩ => show v.val = if (1024 : Nat) = 1 then 0 else v.val; rw [if_neg (by decide)])]
  rw [shapeCast_shapeCast]

/-- Region 2's output block after the body. -/
theorem out2_apply (e : Vec Ideal S1x16x1024 .f32) (d : Vec Ideal S1x128x1024 .f32) (z : Fin 1) (s : Fin 16) (u : Fin 128) (v : Fin 1024) :
    out2_2 e d (ix4 z s u v) = e (ix3 (0 : Fin 1) s v) + d (ix3 (0 : Fin 1) u v) := by
  unfold out2_2
  rw [View.canon_unit_zero hz4]
  simp only [View.ld_unit_zero (S := S1x16x1024) hz3, View.ld_unit_zero (S := S1x128x1024) hz3]
  unfold k2_pay1
  refine (shapeCast_abc_1abc_apply _ shapeCasts_S16x128x1024_S1x16x128x1024 z s u v).trans ?_
  rw [addf_apply, enc_part, dec_part]

end Cert.KernelIdeal.AddBlock

end
-- ==== Proof.AddArray.lean ====
/-
  The broadcast-add region: the two projected stacks added, each repeated along the other's row axis.

  The grid is `2 × 32`; point `t = 32·b + g` reads rows `16·g … 16·g + 15` of batch `b` of the `[2, 512, 1024]` encoder
  stack and all of batch `b` of the `[2, 128, 1024]` decoder stack, and writes the `[1, 16, 128, 1024]` block at
  `(b, g, 0, 0)` of the `[2, 512, 128, 1024]` output.  What it writes is its block of ONE array, the repeated sum of the
  two stacks as the region finds them; the sixty-four blocks tile the output.
-/
import proofs.«100149_j7310034338570_1_alg».proof.Proof.Gen.KernelIdeal.Frame
import proofs.«100149_j7310034338570_1_alg».proof.Proof.AddBlock
import proofs.«100149_j7310034338570_1_alg».proof.Proof.JointSpec
import Idealize.ShloMosaic.Lib.Pipeline.Value
import Idealize.ShloMosaic.Lib.ValueIdx

set_option maxRecDepth 16384

noncomputable section

open scoped BigOperators

namespace Cert.KernelIdeal.AddArray

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The printed index maps over the grid: batch `t / 32`, row group `t % 32`. -/
theorem idx_facts : ∀ t : Fin cfg2.N, win2_0.index t (0 : Fin 3) = t.val / 32 ∧ win2_0.index t (1 : Fin 3) = t.val % 32
    ∧ win2_0.index t (2 : Fin 3) = 0
    ∧ win2_1.index t (0 : Fin 3) = t.val / 32 ∧ win2_1.index t (1 : Fin 3) = 0 ∧ win2_1.index t (2 : Fin 3) = 0
    ∧ win2_2.index t (0 : Fin 4) = t.val / 32 ∧ win2_2.index t (1 : Fin 4) = t.val % 32
    ∧ win2_2.index t (2 : Fin 4) = 0 ∧ win2_2.index t (3 : Fin 4) = 0 :=
  (by decide +kernel : ∀ t : Fin grid2.N, _)

theorem lt_sixty_four (t : Fin cfg2.N) : t.val < 64 :=
  Nat.lt_of_lt_of_eq t.isLt (show cfg2.N = 64 from N_2)

/-- Row `s` of point `t`'s encoder block is row `16·(t % 32) + s` of batch `t / 32`. -/
theorem enc_block (c : Dev nD) (t : Fin cfg2.N) (s : Fin 16) (v : Fin 1024) (B : Fin 2) (T : Fin 512)
    (hB : B.val = t.val / 32) (hT : T.val = t.val % 32 * 16 + s.val) :
    (iblk2 V c 0 t : FVec Ideal S1x16x1024 .f32) (ix3 (0 : Fin 1) s v) = (V c main_v7 : FVec Ideal S2x512x1024 .f32) (ix3 B T v) := by
  obtain ⟨e0, e1, e2, -⟩ := idx_facts t
  unfold iblk2
  rw [View.read_apply]
  show V c main_v7 _ = V c main_v7 _
  refine congrArg (V c main_v7) (funext fun a => Fin.ext ?_)
  match a with
  | ⟨0, _⟩ => show win2_0.index t (0 : Fin 3) * 1 + 1 * 0 = B.val; rw [e0, hB]; omega
  | ⟨1, _⟩ => show win2_0.index t (1 : Fin 3) * 16 + 1 * s.val = T.val; rw [e1, hT]; omega
  | ⟨2, _⟩ => show win2_0.index t (2 : Fin 3) * 1024 + 1 * v.val = v.val; rw [e2]; omega

/-- Point `t`'s decoder block is batch `t / 32`. -/
theorem dec_block (c : Dev nD) (t : Fin cfg2.N) (u : Fin 128) (v : Fin 1024) (B : Fin 2) (hB : B.val = t.val / 32) :
    (iblk2 V c 1 t : FVec Ideal S1x128x1024 .f32) (ix3 (0 : Fin 1) u v) = (V c main_v9 : FVec Ideal S2x128x1024 .f32) (ix3 B u v) := by
  obtain ⟨-, -, -, e3, e4, e5, -⟩ := idx_facts t
  unfold iblk2
  rw [View.read_apply]
  show V c main_v9 _ = V c main_v9 _
  refine congrArg (V c main_v9) (funext fun a => Fin.ext ?_)
  match a with
  | ⟨0, _⟩ => show win2_1.index t (0 : Fin 3) * 1 + 1 * 0 = B.val; rw [e3, hB]; omega
  | ⟨1, _⟩ => show win2_1.index t (1 : Fin 3) * 128 + 1 * u.val = u.val; rw [e4]; omega
  | ⟨2, _⟩ => show win2_1.index t (2 : Fin 3) * 1024 + 1 * v.val = v.val; rw [e5]; omega

/-- WHAT POINT `t` WRITES BACK is block `t` of the repeated sum of the two stacks as the region finds them. -/
theorem flushed_eq (c : Dev nD) (t : Fin cfg2.N) :
    (dat2 V c).flushed 2 t = ((cfg2.win 2).blk t).view.read (Elt Ideal) (Joint.badd (V c main_v7) (V c main_v9)) := by
  show (cfg2.win 2).cut (grid2.coords t) ((dat2 V c).after 2 t) = _
  rw [after2_2]
  obtain ⟨-, -, -, -, -, -, e6, e7, e8, e9⟩ := idx_facts t
  have ht := lt_sixty_four t
  funext j
  obtain ⟨z, s, u, v, rfl⟩ : ∃ (z : Fin 1) (s : Fin 16) (u : Fin 128) (v : Fin 1024), j = ix4 z s u v :=
    ⟨j 0, j 1, j 2, j 3, eq_ix4 j⟩
  show out2_2 (iblk2 V c 0 t) (iblk2 V c 1 t) (ix4 z s u v)
    = Joint.badd (V c main_v7) (V c main_v9) (((cfg2.win 2).blk t).view.emb (ix4 z s u v))
  refine (AddBlock.out2_apply (iblk2 V c 0 t) (iblk2 V c 1 t) z s u v).trans ?_
  have hz := z.isLt
  have hs := s.isLt
  refine Eq.trans ?_ (Joint.badd_apply (V c main_v7) (V c main_v9) _ ⟨t.val / 32, by omega⟩ ⟨t.val % 32 * 16 + s.val, by omega⟩ u v
    (by show win2_2.index t (0 : Fin 4) * 1 + 1 * z.val = t.val / 32; rw [e6]; omega)
    (by show win2_2.index t (1 : Fin 4) * 16 + 1 * s.val = t.val % 32 * 16 + s.val; rw [e7]; omega)
    (by show win2_2.index t (2 : Fin 4) * 128 + 1 * u.val = u.val; rw [e8]; omega)
    (by show win2_2.index t (3 : Fin 4) * 1024 + 1 * v.val = v.val; rw [e9]; omega)).symm
  exact congrArg₂ (· + ·) (enc_block V c t s v ⟨t.val / 32, by omega⟩ ⟨t.val % 32 * 16 + s.val, by omega⟩ rfl rfl)
    (dec_block V c t u v ⟨t.val / 32, by omega⟩ rfl)

/-- An index of the output is in point `t`'s block iff each coordinate is in the block's range on its axis. -/
theorem mem_blk (t : Fin cfg2.N) (i : S2x512x128x1024.Idx) :
    i ∈ ((cfg2.win 2).blk t).view.set ↔ ∀ a : Fin 4, win2_2.index t a * S1x16x128x1024.size a ≤ (i a).val ∧ (i a).val < win2_2.index t a * S1x16x128x1024.size a + S1x16x128x1024.size a := by
  show i ∈ ((View.whole main_v10).slice (win2_2.rect t)).set ↔ _
  rw [View.set_slice_whole, Rect.mem_set_unit]
  exact Iff.rfl

/-- The blocks tile the output: entry `(b, r, u, v)` is in the block of point `32·b + r / 16`. -/
theorem cover (i : S2x512x128x1024.Idx) : ∃ t : Fin cfg2.N, (cfg2.win 2).flush t = true ∧ i ∈ ((cfg2.win 2).blk t).view.set := by
  have hi0 : (i 0).val < 2 := (i 0).isLt
  have hi1 : (i 1).val < 512 := (i 1).isLt
  have hi2 : (i 2).val < 128 := (i 2).isLt
  have hi3 : (i 3).val < 1024 := (i 3).isLt
  obtain ⟨t, ht⟩ : ∃ t : Fin cfg2.N, t.val = (i 0).val * 32 + (i 1).val / 16 :=
    ⟨⟨(i 0).val * 32 + (i 1).val / 16, by rw [show cfg2.N = 64 from N_2]; omega⟩, rfl⟩
  obtain ⟨-, -, -, -, -, -, e6, e7, e8, e9⟩ := idx_facts t
  refine ⟨t, flush2_2 t, ?_⟩
  rw [mem_blk]
  intro a
  match a with
  | ⟨0, _⟩ => show win2_2.index t (0 : Fin 4) * 1 ≤ (i 0).val ∧ (i 0).val < win2_2.index t (0 : Fin 4) * 1 + 1; rw [e6, ht]; omega
  | ⟨1, _⟩ => show win2_2.index t (1 : Fin 4) * 16 ≤ (i 1).val ∧ (i 1).val < win2_2.index t (1 : Fin 4) * 16 + 16; rw [e7, ht]; omega
  | ⟨2, _⟩ => show win2_2.index t (2 : Fin 4) * 128 ≤ (i 2).val ∧ (i 2).val < win2_2.index t (2 : Fin 4) * 128 + 128; rw [e8]; omega
  | ⟨3, _⟩ => show win2_2.index t (3 : Fin 4) * 1024 ≤ (i 3).val ∧ (i 3).val < win2_2.index t (3 : Fin 4) * 1024 + 1024; rw [e9]; omega

/-- THE ARRAY after the region: the repeated sum. -/
theorem array_eq (c : Dev nD) : (dat2 V c).arrAt 2 cfg2.N = Joint.badd (V c main_v7) (V c main_v9) :=
  (dat2 V c).arrAt_eq_of_cover 2 (Joint.badd (V c main_v7) (V c main_v9)) (fun t _ => flushed_eq V c t) cover

end Cert.KernelIdeal.AddArray

end
-- ==== Proof.Boundaries.lean ====
/-
  The buffer contents at the boundaries of the idealized kernel's program, walked back to its arguments.

  Before the first region the host flattens the encoder and decoder stacks into row matrices and cuts the weight
  matrix into two halves, each transposed.  The first region multiplies the encoder rows by the left half; the host
  cuts the product back into a stack.  The second region multiplies the decoder rows by the right half; the host cuts
  that product back into a stack.  The third region adds the two stacks, each repeated along the other's row axis.
  A region leaves every array but its own output as it found it, and a host operation writes one buffer, so each
  array a region reads is a short term over the arguments and the earlier regions' outputs.  Put together, the result
  buffer after the last region is the joint output of the three arguments.
-/
import proofs.«100149_j7310034338570_1_alg».proof.Proof.Gen.KernelIdeal.Frame
import proofs.«100149_j7310034338570_1_alg».proof.Proof.KernelRun
import proofs.«100149_j7310034338570_1_alg».proof.Proof.EncRows
import proofs.«100149_j7310034338570_1_alg».proof.Proof.DecRows
import proofs.«100149_j7310034338570_1_alg».proof.Proof.AddArray
import proofs.«100149_j7310034338570_1_alg».proof.Proof.JointSpec
import Idealize.ShloMosaic.Lib.StableHlo.Run

set_option maxRecDepth 16384

noncomputable section

namespace Cert.KernelIdeal.Boundaries

open Cert.KernelIdeal Cert.KernelIdeal.Gen
open Idealize.ShloMosaic Idealize.ShloMosaic.TcCoe Idealize.ShloMosaic.StableHlo

variable (m : (ℓ : Loc nD τ sig) → Buf (Elt Ideal) ℓ) (ρ : Dev nD → PrngReg)

/-! ## What the first region finds -/

/-- The encoder rows: the encoder stack flattened. -/
theorem enc_rows (c : Dev nD) :
    V1 m ρ c main_v4 = shapeCast S1024x512 (m ((c : Thread nD τ).loc main_arg0)) shapeCasts_S2x512x512_S1024x512 := by
  show StableHlo.after hostOps0 (W0 m ρ c) (Proc.devRef .tc main_v4) = _
  after_results
  rfl

/-- The left weights: columns 0 … 511 of the weight matrix, transposed. -/
theorem lo_weights (c : Dev nD) :
    V1 m ρ c main_v1 = transpose S512x1024 [1, 0]
      (extractStridedSlice S1024x512 ![0, 0] (m ((c : Thread nD τ).loc main_arg2)) slices_S1024x1024_S1024x512_0_0)
      transposes_S1024x512_S512x1024_1_0 := by
  show StableHlo.after hostOps0 (W0 m ρ c) (Proc.devRef .tc main_v1) = _
  after_results

/-! ## What the second region finds: the first region and the host operation after it write neither array -/

/-- The decoder rows: the decoder stack flattened. -/
theorem dec_rows (c : Dev nD) :
    V3 m ρ c main_v5 = shapeCast S256x512 (m ((c : Thread nD τ).loc main_arg1)) shapeCasts_S2x128x512_S256x512 := by
  show StableHlo.after hostOps1 (W2 m ρ c) (Proc.devRef .tc main_v5) = _
  after_results
  rw [W2_of_ne m ρ c main_v5 (by decide)]
  show StableHlo.after hostOps0 (W0 m ρ c) (Proc.devRef .tc main_v5) = _
  after_results
  rfl

/-- The right weights: columns 512 … 1023 of the weight matrix, transposed. -/
theorem hi_weights (c : Dev nD) :
    V3 m ρ c main_v3 = transpose S512x1024 [1, 0]
      (extractStridedSlice S1024x512 ![0, 512] (m ((c : Thread nD τ).loc main_arg2)) slices_S1024x1024_S1024x512_0_512)
      transposes_S1024x512_S512x1024_1_0 := by
  show StableHlo.after hostOps1 (W2 m ρ c) (Proc.devRef .tc main_v3) = _
  after_results
  rw [W2_of_ne m ρ c main_v3 (by decide)]
  show StableHlo.after hostOps0 (W0 m ρ c) (Proc.devRef .tc main_v3) = _
  after_results

/-! ## What the third region finds -/

/-- The encoder stack: the first region's product cut into batches (the second region does not write it). -/
theorem enc_stack (c : Dev nD) :
    V5 m ρ c main_v7 = shapeCast S2x512x1024 ((dat0 (V1 m ρ) c).arrAt 2 cfg0.N) shapeCasts_S1024x1024_S2x512x1024 := by
  show StableHlo.after hostOps2 (W4 m ρ c) (Proc.devRef .tc main_v7) = _
  after_results
  rw [W4_of_ne m ρ c main_v7 (by decide)]
  show StableHlo.after hostOps1 (W2 m ρ c) (Proc.devRef .tc main_v7) = _
  after_results
  exact congrArg (fun X => shapeCast S2x512x1024 X shapeCasts_S1024x1024_S2x512x1024) (W2_arr m ρ c 2)

/-- The decoder stack: the second region's product cut into batches. -/
theorem dec_stack (c : Dev nD) :
    V5 m ρ c main_v9 = shapeCast S2x128x1024 ((dat1 (V3 m ρ) c).arrAt 2 cfg1.N) shapeCasts_S256x1024_S2x128x1024 := by
  show StableHlo.after hostOps2 (W4 m ρ c) (Proc.devRef .tc main_v9) = _
  after_results
  exact congrArg (fun X => shapeCast S2x128x1024 X shapeCasts_S256x1024_S2x128x1024) (W4_arr m ρ c 2)

/-! ## The result -/

/-- After the last region the result buffer holds the joint output of the three arguments. -/
theorem result_eq (c : Dev nD) :
    W6 m ρ c (Proc.devRef .tc main_v10)
      = Joint.joint (m ((c : Thread nD τ).loc main_arg0)) (m ((c : Thread nD τ).loc main_arg1)) (m ((c : Thread nD τ).loc main_arg2)) := by
  rw [RunValue.W6_result, AddArray.array_eq (V5 m ρ) c, enc_stack, dec_stack, EncRows.array_eq (V1 m ρ) c,
    DecRows.array_eq (V3 m ρ) c, enc_rows, lo_weights, dec_rows, hi_weights]
  exact Joint.arrangement_eq_joint _ _ _ _ _ _ _ _ _ _

end Cert.KernelIdeal.Boundaries

end
-- ==== Proof.RefValue.lean ====
/-
  The reference computes the specification.

  Its program slices the weight matrix into its left and right halves, contracts the encoder states with the left
  half and the decoder states with the right half over the width axis, repeats the first product along `u` and the
  second along `t`, and adds them.  Read at `(b, t, u, v)` one operation at a time, that is
  `∑ d, enc[b,t,d] · W[v,d] + ∑ d, dec[b,u,d] · W[v,512+d]`.
-/
import proofs.«100149_j7310034338570_1_alg».proof.Proof.Gen.ReferenceIdeal.Run
import proofs.«100149_j7310034338570_1_alg».proof.Proof.Gen.ReferenceIdeal.Read
import proofs.«100149_j7310034338570_1_alg».proof.Proof.JointSpec

noncomputable section

open scoped BigOperators

namespace Cert.ReferenceIdeal.RefValue

open Cert.ReferenceIdeal Cert.ReferenceIdeal.Gen Cert.ReferenceIdeal.Read
open Idealize.ShloMosaic Idealize.ShloMosaic.TcCoe Idealize.ShloMosaic.ValueIdx

/-- The reference's last stage is the joint output of its three arguments. -/
theorem stage_eq_joint (x0 : (⟨S2x512x512, .f32⟩ : BufTy).Contents (Elt Ideal)) (x1 : (⟨S2x128x512, .f32⟩ : BufTy).Contents (Elt Ideal))
    (x2 : (⟨S1024x1024, .f32⟩ : BufTy).Contents (Elt Ideal)) :
    val_main_v8 (F := Ideal) x0 x1 x2 = Joint.joint x0 x1 x2 := by
  funext i
  obtain ⟨b, t, u, v, rfl⟩ : ∃ (b : Fin 2) (t : Fin 512) (u : Fin 128) (v : Fin 1024), i = ix4 b t u v :=
    ⟨i 0, i 1, i 2, i 3, eq_ix4 i⟩
  rw [val_main_v8_apply, val_main_v6_apply, val_main_v4_apply, val_main_v2_apply, val_main_v7_apply, val_main_v5_apply,
    val_main_v3_apply]
  have eL (k : Fin 512) : lidx_main_v2 (idx_main_v4 (idx_main_v6 (ix4 b t u v))) k = ix3 b t k :=
    funext fun a => Fin.ext (by match a with | ⟨0, _⟩ => rfl | ⟨1, _⟩ => rfl | ⟨2, _⟩ => rfl)
  have eR (k : Fin 512) : idx_main_v0 (ridx_main_v2 (idx_main_v4 (idx_main_v6 (ix4 b t u v))) k) = ix2 v (Joint.lo k) :=
    funext fun a => Fin.ext (by match a with | ⟨0, _⟩ => rfl | ⟨1, _⟩ => rfl)
  have eL' (k : Fin 512) : lidx_main_v3 (idx_main_v5 (idx_main_v7 (ix4 b t u v))) k = ix3 b u k :=
    funext fun a => Fin.ext (by match a with | ⟨0, _⟩ => rfl | ⟨1, _⟩ => rfl | ⟨2, _⟩ => rfl)
  have eR' (k : Fin 512) : idx_main_v1 (ridx_main_v3 (idx_main_v5 (idx_main_v7 (ix4 b t u v))) k) = ix2 v (Joint.hi k) :=
    funext fun a => Fin.ext (by match a with | ⟨0, _⟩ => rfl | ⟨1, _⟩ => rfl)
  show (∑ k : Fin 512, _) + (∑ k : Fin 512, _) = Joint.projAt x0 x2 Joint.lo b t v + Joint.projAt x1 x2 Joint.hi b u v
  unfold Joint.projAt
  refine congrArg₂ (· + ·) (Finset.sum_congr rfl fun k _ => ?_) (Finset.sum_congr rfl fun k _ => ?_)
  · rw [val_main_v0_apply, eL, eR]
  · rw [val_main_v1_apply, eL', eR']

end Cert.ReferenceIdeal.RefValue

end
-- ==== Proof.lean ====
/-
  The joint network of a transducer: `out[b, t, u, v] = ∑ d, enc[b,t,d]·W[v,d] + ∑ d, dec[b,u,d]·W[v,512+d]`.

  The kernel computes it in three pipelined regions — the encoder rows times the transposed left half of `W`, the
  decoder rows times the transposed right half, then the two projected stacks added with each repeated along the
  other's row axis — with reshapes, slices and transposes on the host between them; the reference contracts each
  stack with its half of `W` directly and adds the broadcasts.  On the extended reals a change of float format is the
  identity and a matrix product into a zero accumulator is the plain sum of products, so both programs end with the
  one function `Joint.joint` of the three arguments (Proof/JointSpec.lean), entry by entry.  No step moves a factor
  across a sum or cancels anything, so the finiteness of the inputs is never used.

  The pieces: what one grid point of each region writes (Proof/ProjBlock.lean, Proof/AddBlock.lean); each region's
  output array as one function of the arrays it finds, its blocks tiling the array (Proof/EncRows.lean,
  Proof/DecRows.lean, Proof/AddArray.lean); the run with the result buffer named at the last boundary's contents
  (Proof/KernelRun.lean) and those contents walked back to the arguments (Proof/Boundaries.lean); the reference's
  stages read at an index (Proof/RefValue.lean).  The idealization rewrote no operation, so there is nothing to
  preserve beyond the program's own text.
-/
import proofs.«100149_j7310034338570_1_alg».proof.Defs
import proofs.«100149_j7310034338570_1_alg».proof.Proof.Gen.Kernel
import proofs.«100149_j7310034338570_1_alg».proof.Proof.Gen.Kernel.Skeleton
import proofs.«100149_j7310034338570_1_alg».proof.Proof.Gen.Kernel.Launch
import proofs.«100149_j7310034338570_1_alg».proof.Proof.Gen.Kernel.Points
import proofs.«100149_j7310034338570_1_alg».proof.Proof.Gen.Kernel.Frame
import proofs.«100149_j7310034338570_1_alg».proof.Proof.Gen.KernelIdeal
import proofs.«100149_j7310034338570_1_alg».proof.Proof.Gen.KernelIdeal.Skeleton
import proofs.«100149_j7310034338570_1_alg».proof.Proof.Gen.KernelIdeal.Launch
import proofs.«100149_j7310034338570_1_alg».proof.Proof.Gen.KernelIdeal.Points
import proofs.«100149_j7310034338570_1_alg».proof.Proof.Gen.KernelIdeal.Frame
import proofs.«100149_j7310034338570_1_alg».proof.Proof.Gen.ReferenceIdeal
import proofs.«100149_j7310034338570_1_alg».proof.Proof.Gen.ReferenceIdeal.Run
import proofs.«100149_j7310034338570_1_alg».proof.Proof.Gen.ReferenceIdeal.Read
import proofs.«100149_j7310034338570_1_alg».proof.Proof.Gen.Pre_finite_inputs
import proofs.«100149_j7310034338570_1_alg».proof.Proof.JointSpec
import proofs.«100149_j7310034338570_1_alg».proof.Proof.KernelRun
import proofs.«100149_j7310034338570_1_alg».proof.Proof.Boundaries
import proofs.«100149_j7310034338570_1_alg».proof.Proof.RefValue
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel (hKernel := Cert.Kernel.Gen.facts) (hPre_finite_inputs := Cert.Pre_finite_inputs.Gen.facts) :=
  fun m ρ _ => Cert.Kernel.Gen.frame m ρ

/-- The idealized kernel runs and keeps its arguments. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the three arguments both programs end with the joint output of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Joint.joint (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.Boundaries.result_eq m ρ c), (h c).2⟩)
      (Cert.KernelIdeal.RunValue.run_result m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v8_eq, Cert.ReferenceIdeal.RefValue.stage_eq_joint, (hagree c).1, (hagree c).2.1,
      (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
